-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S256x4096 : Shape := ⟨2, ![256, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S256x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S256x4096 : Shape := ⟨2, ![256, 4096]⟩
abbrev S4096 : Shape := ⟨1, ![4096]⟩
abbrev S4096x256 : Shape := ⟨2, ![4096, 256]⟩
abbrev S1x4096x1x256 : Shape := ⟨4, ![1, 4096, 1, 256]⟩
abbrev S1x4096x16x256 : Shape := ⟨4, ![1, 4096, 16, 256]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S4096x256, .f32⟩
  | .hbm, ⟨4, _⟩ => ⟨S1x4096x1x256, .f32⟩
  | .hbm, ⟨5, _⟩ => ⟨S1x4096x16x256, .f32⟩
  | .hbm, ⟨6, _⟩ => ⟨S4096x4096, .f32⟩
  | .hbm, ⟨7, _⟩ => ⟨S8192x4096, .bf16⟩
  | .hbm, ⟨8, _⟩ => ⟨S4096x4096, .bf16⟩
  | .hbm, ⟨9, _⟩ => ⟨S1x4096, .f32⟩
  | .hbm, ⟨10, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S256x4096_S4096x256_1_0 : S256x4096.Transposes [1, 0] S4096x256
  shapeCasts_S4096x256_S1x4096x1x256 : S4096x256.ShapeCasts S1x4096x1x256
  bcast_S1x4096x1x256_S1x4096x16x256_0_1_2_3 : S1x4096x1x256.BroadcastsInDim S1x4096x16x256 (![0, 1, 2, 3] : Fin 4 → Fin S1x4096x16x256.rank)
  shapeCasts_S1x4096x16x256_S4096x4096 : S1x4096x16x256.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S256x4096 : Shape := ⟨2, ![256, 4096]⟩
abbrev S4096 : Shape := ⟨1, ![4096]⟩
abbrev S1x256x1x4096 : Shape := ⟨4, ![1, 256, 1, 4096]⟩
abbrev S16x256x1x4096 : Shape := ⟨4, ![16, 256, 1, 4096]⟩
abbrev S4096x4096 : Shape := ⟨2, ![4096, 4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S1x256x1x4096, .f32⟩
  | .hbm, ⟨4, _⟩ => ⟨S16x256x1x4096, .f32⟩
  | .hbm, ⟨5, _⟩ => ⟨S4096x4096, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S256x4096_S1x256x1x4096 : S256x4096.ShapeCasts S1x256x1x4096
  bcast_S1x256x1x4096_S16x256x1x4096_0_1_2_3 : S1x256x1x4096.BroadcastsInDim S16x256x1x4096 (![0, 1, 2, 3] : Fin 4 → Fin S16x256x1x4096.rank)
  shapeCasts_S16x256x1x4096_S4096x4096 : S16x256x1x4096.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.CaseValues.lean ====
/-
  What each kind of grid point leaves behind, as values.

  The kernel walks a grid of 8 × 4 × 4 points; the last coordinate runs along the contraction axis, so four consecutive
  points form one run that builds one 1024 × 1024 block of the result. The first point of a run clears the accumulator
  and adds the product of its two input blocks; the two middle points add theirs to what they find; the last point adds
  its own and then writes accumulator plus bias to the output block. The generated frame records, per kind of point, the
  list of stores the body made; here each list is read back as the value it denotes: every store covers its whole
  buffer through the zero-offset full rectangle, so the last store's payload is what the buffer holds, and a load
  between two stores reads the earlier store's payload.
-/
import proofs.«126062_j38895223832848_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl

/-- The block of zeros the first point of a run stores into the accumulator. -/
abbrev zero : FVec F S1024x1024 .f32 := broadcast S1024x1024 (Scalar.ofBits .f32 0x00000000#32)

/-- One accumulation step: the accumulator plus the product of the point's two input blocks. -/
abbrev step (acc : FVec F S1024x1024 .f32) (x w : FVec F S1024x1024 .bf16) : FVec F S1024x1024 .f32 :=
  addf acc (matmul dot_S1024x1024_S1024x1024_S1024x1024_1_0_0_1_n_n none x w (constant S1024x1024 .f32 0x00000000#32))

/-- The last point's output: the accumulator plus the bias row repeated down the rows. -/
abbrev withBias (acc : FVec F S1024x1024 .f32) (b : FVec F S1x1024 .f32) : FVec F S1024x1024 .f32 :=
  addf acc (broadcastTo S1024x1024 b broadcasts_S1x1024_S1024x1024)

/-- A middle point of a run (neither first nor last along the contraction axis) leaves in the accumulator what it found
    there plus the product of its two input blocks: its one store covers the accumulator, and its loads read whole
    buffers. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = step xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  unfold k0_pay2
  simp only [View.readAt_eq_ld, h3.read_unread, h4.read_unread, h7.read_unread, View.ld_unit_zero (S := S1024x1024) hz,
    shapeCast_self]

/-- The first point of a run stores the zero block, reads it back, and leaves zero plus the product of its two input
    blocks: the later store covers the earlier one, and the load between them reads what the earlier one wrote. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = step zero x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  unfold k0_pay2 k0_pay1
  simp only [View.readAt_eq_ld, h3.read_unread, h4.read_unread, View.ld_unit_zero (S := S1024x1024) hz, shapeCast_self]

/-- The last point of a run leaves in the accumulator the same step as a middle point. -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = step xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  unfold k0_pay2
  simp only [View.readAt_eq_ld, h3.read_unread, h4.read_unread, h7.read_unread, View.ld_unit_zero (S := S1024x1024) hz,
    shapeCast_self]

/-- The last point of a run writes to the output block the accumulator after its own step, read back, plus the bias row
    repeated down the rows. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = withBias (step xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  unfold k0_pay3 k0_pay2
  simp only [View.readAt_eq_ld, h3.read_unread, h4.read_unread, h5.read_unread, h7.read_unread,
    View.ld_unit_zero (S := S1024x1024) hz, View.ld_unit_zero (S := S1x1024) hz, shapeCast_self]

end Cert.KernelIdeal.CaseValue

end
-- ==== Proof.Spec.lean ====
/-
  The function both programs compute, over the extended reals.

  The weight matrix of the layer is the 256 × 4096 shared block repeated sixteen times down its 4096 rows, so output
  feature `j` uses shared row `j mod 256`. The layer is then
      out[i, j] = (Σ_k x[i, k] · shared[j mod 256, k]) + bias[j],
  the sum over all 4096 input features in their natural order, starting from zero.
-/
import Idealize.ShloMosaic.PureOps.Ideal
import Idealize.ShloMosaic.Lib.ValueIdx

noncomputable section

namespace Cert.Spec

open Idealize.ShloMosaic Idealize.ShloMosaic.ValueIdx
open scoped BigOperators

/-- The shared row that output feature `j` uses. -/
abbrev col (j : Fin 4096) : Fin 256 := ⟨j.val % 256, Nat.mod_lt _ (by decide)⟩

/-- The layer's result, entry by entry. -/
def G (X : FVec Ideal ⟨2, ![8192, 4096]⟩ .f32) (SW : FVec Ideal ⟨2, ![256, 4096]⟩ .f32) (B : FVec Ideal ⟨1, ![4096]⟩ .f32) :
    FVec Ideal ⟨2, ![8192, 4096]⟩ .f32 :=
  fun i => (∑ k : Fin 4096, X (ix2 (i 0) k) * SW (ix2 (col (i 1)) k)) + B (ix1 (i 1))

theorem G_apply (X : FVec Ideal ⟨2, ![8192, 4096]⟩ .f32) (SW : FVec Ideal ⟨2, ![256, 4096]⟩ .f32) (B : FVec Ideal ⟨1, ![4096]⟩ .f32)
    (R : Fin 8192) (C : Fin 4096) :
    G X SW B (ix2 R C) = (∑ k : Fin 4096, X (ix2 R k) * SW (ix2 (col C) k)) + B (ix1 C) := rfl

end Cert.Spec

end
-- ==== Proof.HostArrays.lean ====
/-
  What the kernel region finds in the three arrays its input windows stage, read at an index over the extended reals.

  Before the region the program converts `x` to the narrow format (the identity on extended reals), builds the
  4096 × 4096 weight operand by transposing the 256 × 4096 shared weights, repeating the 256 columns sixteen times and
  converting, and views the bias vector as a single row. So entry (k, j) of the weight operand is shared weight
  (j mod 256, k): column j of the repeated matrix is column j mod 256 of the transpose.
-/
import proofs.«126062_j38895223832848_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«126062_j38895223832848_1_alg».proof.Proof.Spec

noncomputable section

open Idealize.ShloMosaic Idealize.ShloMosaic.TcCoe Idealize.SL.Sem Idealize.ShloMosaic.ValueIdx

namespace Cert.KernelIdeal.HostArrays

open Cert.KernelIdeal Cert.KernelIdeal.Gen Cert.Spec

variable (m : (ℓ : Loc nD τ sig) → Buf (Elt Ideal) ℓ)

/-- The first window's array is `x`, converted. -/
theorem xarr_eq (c : Dev nD) :
    (V m c main_v4 : FVec Ideal S8192x4096 .bf16)
      = truncf (F := Ideal) .bf16 (m ((c : Thread nD τ).loc main_arg0) : FVec Ideal S8192x4096 .f32) bitsLt_bf16_f32 := by
  dsimp only [V, hostOps0]; after_results

/-- The third window's array is the bias vector viewed as one row. -/
theorem barr_eq (c : Dev nD) :
    (V m c main_v6 : FVec Ideal S1x4096 .f32) = shapeCast S1x4096 (m ((c : Thread nD τ).loc main_arg2)) shapeCasts_S4096_S1x4096 := by
  dsimp only [V, hostOps0]; after_results; rfl

/-- The second window's array is the shared weights transposed, their columns repeated sixteen times, converted. -/
theorem warr_eq (c : Dev nD) :
    (V m c main_v5 : FVec Ideal S4096x4096 .bf16)
      = truncf (F := Ideal) .bf16 (shapeCast S4096x4096 (broadcastInDim S1x4096x16x256 ![0, 1, 2, 3] bcast_S1x4096x1x256_S1x4096x16x256_0_1_2_3 (shapeCast S1x4096x1x256 (transpose S4096x256 [1, 0] (m ((c : Thread nD τ).loc main_arg1) : FVec Ideal S256x4096 .f32) transposes_S256x4096_S4096x256_1_0) shapeCasts_S4096x256_S1x4096x1x256)) shapeCasts_S1x4096x16x256_S4096x4096 : FVec Ideal S4096x4096 .f32) bitsLt_bf16_f32 := by
  dsimp only [V, hostOps0]; after_results; rfl

/-- Entry by entry the first window's array is `x`. -/
theorem xarr_apply (c : Dev nD) (i : S8192x4096.Idx) :
    (V m c main_v4 : FVec Ideal S8192x4096 .bf16) i = (m ((c : Thread nD τ).loc main_arg0) : FVec Ideal S8192x4096 .f32) i := by
  rw [xarr_eq]; rfl

/-- Column `C` of the bias row is entry `C` of the bias vector. -/
theorem barr_apply (c : Dev nD) (C : Fin 4096) :
    (V m c main_v6 : FVec Ideal S1x4096 .f32) (ix2 0 C) = (m ((c : Thread nD τ).loc main_arg2) : FVec Ideal S4096 .f32) (ix1 C) := by
  rw [barr_eq]
  exact shapeCast_apply _ shapeCasts_S4096_S1x4096 (ix2 0 C) (ix1 C)
    (by rewrite [Shape.rowMajor_val_one, Shape.rowMajor_val_two]; show C.val = 0 * 4096 + C.val; omega)

/-- Entry (k, j) of the weight operand is shared weight (j mod 256, k). -/
theorem warr_apply (c : Dev nD) (k j : Fin 4096) :
    (V m c main_v5 : FVec Ideal S4096x4096 .bf16) (ix2 k j) = (m ((c : Thread nD τ).loc main_arg1) : FVec Ideal S256x4096 .f32) (ix2 (col j) k) := by
  rw [warr_eq, truncf_apply]
  have hk : k.val < 4096 := k.isLt
  have hj : j.val < 4096 := j.isLt
  refine (shapeCast_apply _ shapeCasts_S1x4096x16x256_S4096x4096 (ix2 k j)
    (ix4 (0 : Fin 1) k (⟨j.val / 256, by omega⟩ : Fin 16) (col j))
    (by rewrite [Shape.rowMajor_val_four, Shape.rowMajor_val_two]
        show ((0 * 4096 + k.val) * 16 + j.val / 256) * 256 + j.val % 256 = k.val * 4096 + j.val; omega)).trans ?_
  refine (broadcastInDim_apply _ bcast_S1x4096x1x256_S1x4096x16x256_0_1_2_3 _ _
    (ix4 (0 : Fin 1) k (0 : Fin 1) (col j)) (fun a => match a with
      | ⟨0, _⟩ => by show 0 = if (1 : Nat) = 1 then 0 else 0; rw [if_pos rfl]
      | ⟨1, _⟩ => by show k.val = if (4096 : Nat) = 1 then 0 else k.val; rw [if_neg (by decide)]
      | ⟨2, _⟩ => by show 0 = if (1 : Nat) = 1 then 0 else j.val / 256; rw [if_pos rfl]
      | ⟨3, _⟩ => by show j.val % 256 = if (256 : Nat) = 1 then 0 else j.val % 256; rw [if_neg (by decide)])).trans ?_
  refine (shapeCast_apply _ shapeCasts_S4096x256_S1x4096x1x256 _ (ix2 k (col j))
    (by rewrite [Shape.rowMajor_val_two, Shape.rowMajor_val_four]
        show k.val * 256 + j.val % 256 = ((0 * 4096 + k.val) * 1 + 0) * 256 + j.val % 256; omega)).trans ?_
  exact transpose_apply [1, 0] _ transposes_S256x4096_S4096x256_1_0 (ix2 k (col j)) (ix2 (col j) k) (fun b => match b with
    | ⟨0, _⟩ => rfl
    | ⟨1, _⟩ => rfl)

end Cert.KernelIdeal.HostArrays

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.SumBlocks.lean ====
/-
  A sum over 4096 contraction positions, taken in four consecutive blocks of 1024.

  Position `k` of the long axis is `1024 * b + r` for a unique block `b < 4` and offset `r < 1024`, so the sum over
  all positions is the sum over the blocks of the sums inside each block. Accumulating the four block sums one after the
  other onto a zero start, `(((0 + s₀) + s₁) + s₂) + s₃`, is therefore the whole sum: in a commutative monoid the order
  and grouping of the terms do not matter, and none of this asks the terms to be finite.
-/
import Mathlib.Algebra.BigOperators.Fin
import Mathlib.Algebra.BigOperators.Group.Finset.Basic
import Mathlib.Logic.Equiv.Fin.Basic

namespace Cert.SumBlocks

open scoped BigOperators

/-- Position `1024 * b + r` of the long axis, for block `b` and offset `r` inside it. -/
abbrev pos (b : Fin 4) (r : Fin 1024) : Fin 4096 := ⟨1024 * b.val + r.val, by omega⟩

/-- The sum over the long axis is the sum over the four blocks of the sums inside each block. -/
theorem sum_eq_blocks {M : Type*} [AddCommMonoid M] (f : Fin 4096 → M) :
    ∑ k : Fin 4096, f k = ∑ b : Fin 4, ∑ r : Fin 1024, f (pos b r) := by
  have e : ∑ k : Fin (4 * 1024), f ⟨k.val, k.isLt⟩ = ∑ p : Fin 4 × Fin 1024, f ⟨(finProdFinEquiv p).val, (finProdFinEquiv p).isLt⟩ :=
    (Equiv.sum_comp finProdFinEquiv (fun k : Fin (4 * 1024) => f ⟨k.val, k.isLt⟩)).symm
  have e' : ∑ k : Fin 4096, f k = ∑ k : Fin (4 * 1024), f ⟨k.val, k.isLt⟩ := rfl
  rw [e', e, Fintype.sum_prod_type]
  refine Finset.sum_congr rfl fun b _ => Finset.sum_congr rfl fun r _ => ?_
  congr 1
  apply Fin.ext
  show (finProdFinEquiv (b, r)).val = 1024 * b.val + r.val
  simp [finProdFinEquiv]
  omega

/-- The four block sums accumulated in order onto a zero start are the whole sum. -/
theorem chain_eq_sum {M : Type*} [AddCommMonoid M] (f : Fin 4096 → M) :
    (((0 + ∑ r : Fin 1024, f (pos 0 r)) + ∑ r : Fin 1024, f (pos 1 r)) + ∑ r : Fin 1024, f (pos 2 r))
      + ∑ r : Fin 1024, f (pos 3 r) = ∑ k : Fin 4096, f k := by
  rw [sum_eq_blocks, Fin.sum_univ_four, zero_add]

end Cert.SumBlocks
-- ==== Proof.BlockMath.lean ====
/-
  One output block, entry by entry, over the extended reals.

  A run of four grid points builds one 1024 × 1024 output block: zero, plus four products of a 1024 × 1024 block of `x`
  with a 1024 × 1024 block of the weight operand, plus the bias row. Entry (p, q) of a product of blocks is the sum over
  the 1024 positions inside the contraction block. If the four block pairs are the four consecutive contraction blocks
  of row `R` of `x` and of the column of shared weights that output feature `C` uses, the four partial sums added in
  order are the whole sum over the 4096 input features: addition of extended reals is commutative and associative, so
  the grouping does not matter and no finiteness is needed.
-/
import proofs.«126062_j38895223832848_1_alg».proof.Proof.CaseValues
import proofs.«126062_j38895223832848_1_alg».proof.Proof.LibPlainMatmul
import proofs.«126062_j38895223832848_1_alg».proof.Proof.SumBlocks
import proofs.«126062_j38895223832848_1_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.BlockMath

open Cert.KernelIdeal Cert.KernelIdeal.CaseValue Cert.Spec Cert.SumBlocks

/-- The cleared accumulator holds zero everywhere. -/
theorem zero_apply (p q : Fin 1024) : (zero (F := Ideal)) (ix2 p q) = 0 := by
  show FloatOps.ofBits (F := Ideal) .f32 0x00000000#32 = 0
  rw [Ideal.ofBits_def, Ideal.ofBits_zero_f32]

/-- One step at (p, q): what the accumulator held there plus the row-by-column sum inside the contraction block. -/
theorem step_apply (acc : FVec Ideal S1024x1024 .f32) (x w : FVec Ideal S1024x1024 .bf16) (p q : Fin 1024) :
    step acc x w (ix2 p q) = acc (ix2 p q) + ∑ r : Fin 1024, x (ix2 p r) * w (ix2 r q) := by
  show acc (ix2 p q) + matmul dot_S1024x1024_S1024x1024_S1024x1024_1_0_0_1_n_n none x w (constant S1024x1024 .f32 0x00000000#32) (ix2 p q) = _
  rw [Cert.PlainMatmul.matmul_zero_apply dot_S1024x1024_S1024x1024_S1024x1024_1_0_0_1_n_n rfl rfl rfl rfl rfl rfl]

/-- The bias row repeated down the rows, at (p, q), is the row's entry q. -/
theorem withBias_apply (acc : FVec Ideal S1024x1024 .f32) (b : FVec Ideal S1x1024 .f32) (p q : Fin 1024) :
    withBias acc b (ix2 p q) = acc (ix2 p q) + b (ix2 0 q) := by
  show acc (ix2 p q) + broadcastTo S1024x1024 b Facts₀.broadcasts_S1x1024_S1024x1024 (ix2 p q) = _
  rw [broadcastTo_apply b Facts₀.broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])]

/-- THE BLOCK: four steps from zero and the bias, at (p, q), when the block pairs are the consecutive contraction
    blocks of row `R` of `X` and of the shared row that output feature `C` uses, and the bias block's entry q is bias `C`:
    the layer's entry (R, C). -/
theorem block_value (X : FVec Ideal S8192x4096 .f32) (SW : FVec Ideal S256x4096 .f32) (B : FVec Ideal S4096 .f32)
    (x0 x1 x2 x3 w0 w1 w2 w3 : FVec Ideal S1024x1024 .bf16) (b : FVec Ideal S1x1024 .f32)
    (R : Fin 8192) (C : Fin 4096) (p q : Fin 1024)
    (hx0 : ∀ r, x0 (ix2 p r) = X (ix2 R (pos 0 r))) (hx1 : ∀ r, x1 (ix2 p r) = X (ix2 R (pos 1 r)))
    (hx2 : ∀ r, x2 (ix2 p r) = X (ix2 R (pos 2 r))) (hx3 : ∀ r, x3 (ix2 p r) = X (ix2 R (pos 3 r)))
    (hw0 : ∀ r, w0 (ix2 r q) = SW (ix2 (col C) (pos 0 r))) (hw1 : ∀ r, w1 (ix2 r q) = SW (ix2 (col C) (pos 1 r)))
    (hw2 : ∀ r, w2 (ix2 r q) = SW (ix2 (col C) (pos 2 r))) (hw3 : ∀ r, w3 (ix2 r q) = SW (ix2 (col C) (pos 3 r)))
    (hb : b (ix2 0 q) = B (ix1 C)) :
    withBias (step (step (step (step zero x0 w0) x1 w1) x2 w2) x3 w3) b (ix2 p q) = G X SW B (ix2 R C) := by
  rw [withBias_apply, step_apply, step_apply, step_apply, step_apply, zero_apply, G_apply, hb]
  simp only [hx0, hx1, hx2, hx3, hw0, hw1, hw2, hw3]
  rw [chain_eq_sum (fun k => X (ix2 R k) * SW (ix2 (col C) k))]

end Cert.KernelIdeal.BlockMath

end
-- ==== Proof.KernelValue.lean ====
/-
  The kernel's result array, over the extended reals, is the layer's result.

  The grid has 8 × 4 × 4 points counted row-major: point `t` works on row block `t / 16` of `x`, column block
  `t / 4 mod 4` of the output and contraction block `t mod 4`. Four consecutive points `4s … 4s + 3` form a run that
  shares its row and column blocks; only the run's last point writes its output block back. Unrolling the run — the
  last point over the two middle points over the first — the block written back is zero plus the four block products
  in order plus the bias row. Read entry by entry: the `x` block at (p, r) is `x` at row `1024 · (t / 16) + p`,
  input feature `1024 · (t mod 4) + r`; the weight block at (r, q) is the shared weight at the row that output
  feature `1024 · (t / 4 mod 4) + q` uses, same input feature; the bias block at q is that output feature's bias.
  So each entry of the block is the layer's entry there, the 32 last points' blocks tile the 8192 × 4096 result, and the
  array after the run is the layer's result everywhere.
-/
import proofs.«126062_j38895223832848_1_alg».proof.Proof.Gen.KernelIdeal.Value
import proofs.«126062_j38895223832848_1_alg».proof.Proof.CaseValues
import proofs.«126062_j38895223832848_1_alg».proof.Proof.HostArrays
import proofs.«126062_j38895223832848_1_alg».proof.Proof.BlockMath
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.CaseValue Cert.KernelIdeal.HostArrays Cert.KernelIdeal.BlockMath
open Cert.Spec Cert.SumBlocks

variable (m : (ℓ : Loc nD τ sig) → Buf (Elt Ideal) ℓ) (ρ : Dev nD → PrngReg)

/-- The three input blocks of a point, at their literal shapes. -/
abbrev xblk (c : Dev nD) (t : Fin cfg0.N) : FVec Ideal S1024x1024 .bf16 := iblk m c 0 t
abbrev wblk (c : Dev nD) (t : Fin cfg0.N) : FVec Ideal S1024x1024 .bf16 := iblk m c 1 t
abbrev bblk (c : Dev nD) (t : Fin cfg0.N) : FVec Ideal S1x1024 .f32 := iblk m c 2 t

/-- Point `t` of the 8 × 4 × 4 grid, counted row-major, has row block `t / 16`, column block `t / 4 mod 4` and
    contraction block `t mod 4`; each window's block index is the pair its index map picks of these. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, r) of the `x` block at point `t` is `x` at row `1024 · (t / 16) + p`, input feature `1024 · (t mod 4) + r`. -/
theorem xblk_apply (c : Dev nD) (t : Fin cfg0.N) (p r : Fin 1024) (R : Fin 8192) (k : Fin 4096)
    (hR : R.val = 1024 * (t.val / 16) + p.val) (hk : k.val = 1024 * (t.val % 4) + r.val) :
    xblk m c t (ix2 p r) = (m ((c : Thread nD τ).loc main_arg0) : FVec Ideal S8192x4096 .f32) (ix2 R k) := by
  obtain ⟨e0, e1, -⟩ := idx_facts t
  show ((cfg0.win 0).blk t).view.read (Elt Ideal) (V m c (Pipeline.arrRef spec0 0)) (ix2 p r) = _
  rw [View.read_apply]
  refine (congrArg (V m c main_v4 : FVec Ideal S8192x4096 .bf16) ?_).trans (xarr_apply m c (ix2 R k))
  funext a; apply Fin.ext
  match a with
  | ⟨0, _⟩ => show win0_0.index t (0 : Fin 2) * 1024 + 1 * p.val = R.val; rw [e0, hR]; omega
  | ⟨1, _⟩ => show win0_0.index t (1 : Fin 2) * 1024 + 1 * r.val = k.val; rw [e1, hk]; omega

/-- Entry (r, q) of the weight block at point `t` is the shared weight at the row output feature
    `1024 · (t / 4 mod 4) + q` uses, input feature `1024 · (t mod 4) + r`. -/
theorem wblk_apply (c : Dev nD) (t : Fin cfg0.N) (r q : Fin 1024) (k C : Fin 4096)
    (hk : k.val = 1024 * (t.val % 4) + r.val) (hC : C.val = 1024 * (t.val / 4 % 4) + q.val) :
    wblk m c t (ix2 r q) = (m ((c : Thread nD τ).loc main_arg1) : FVec Ideal S256x4096 .f32) (ix2 (col C) k) := by
  obtain ⟨-, -, e0, e1, -⟩ := idx_facts t
  show ((cfg0.win 1).blk t).view.read (Elt Ideal) (V m c (Pipeline.arrRef spec0 1)) (ix2 r q) = _
  rw [View.read_apply]
  refine (congrArg (V m c main_v5 : FVec Ideal S4096x4096 .bf16) ?_).trans (warr_apply m c k C)
  funext a; apply Fin.ext
  match a with
  | ⟨0, _⟩ => show win0_1.index t (0 : Fin 2) * 1024 + 1 * r.val = k.val; rw [e0, hk]; omega
  | ⟨1, _⟩ => show win0_1.index t (1 : Fin 2) * 1024 + 1 * q.val = C.val; rw [e1, hC]; omega

/-- Entry q of the bias block at point `t` is the bias of output feature `1024 · (t / 4 mod 4) + q`. -/
theorem bblk_apply (c : Dev nD) (t : Fin cfg0.N) (q : Fin 1024) (C : Fin 4096)
    (hC : C.val = 1024 * (t.val / 4 % 4) + q.val) :
    bblk m c t (ix2 0 q) = (m ((c : Thread nD τ).loc main_arg2) : FVec Ideal S4096 .f32) (ix1 C) := by
  obtain ⟨-, -, -, -, e0, e1, -⟩ := idx_facts t
  show ((cfg0.win 2).blk t).view.read (Elt Ideal) (V m c (Pipeline.arrRef spec0 2)) (ix2 0 q) = _
  rw [View.read_apply]
  refine (congrArg (V m c main_v6 : FVec Ideal S1x4096 .f32) ?_).trans (barr_apply m c C)
  funext a; apply Fin.ext
  match a with
  | ⟨0, _⟩ => show win0_2.index t (0 : Fin 2) * 1 + 1 * 0 = 0; rw [e0]
  | ⟨1, _⟩ => show win0_2.index t (1 : Fin 2) * 1024 + 1 * q.val = C.val; rw [e1, hC]; omega

/-! ## The accumulator after each point, and the output block after a run's last point -/

/-- After the first point of a run the accumulator holds zero plus that point's product. -/
theorem acc_first (c : Dev nD) (n : ℕ) (h : n < cfg0.N) (h0 : n % 4 = 0) :
    (outsAt0 m c n h).2 = step zero (xblk m c ⟨n, h⟩) (wblk m c ⟨n, h⟩) := by
  have h1 : ¬n % 4 = 3 := by omega
  rw [outsAt0_A m c ⟨n, h⟩ h0 h1]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- After a middle point the accumulator holds what the point before left plus this point's product. -/
theorem acc_middle (c : Dev nD) (n : ℕ) (h : n < cfg0.N) (h0 : ¬n % 4 = 0) (h1 : ¬n % 4 = 3) :
    (outsAt0 m c n h).2 = step (outsAt0 m c (n - 1) (Nat.lt_of_le_of_lt (Nat.sub_le _ _) h)).2 (xblk m c ⟨n, h⟩) (wblk m c ⟨n, h⟩) := by
  rw [outsAt0_B m c ⟨n, h⟩ h0 h1]
  dsimp only
  exact sout_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (outsAt0 m c (n - 1) (Nat.lt_of_le_of_lt (Nat.sub_le _ _) h)).2

/-- After the last point of a run the output block holds what the point before left in the accumulator, plus this
    point's product, plus the bias row. -/
theorem out_last_step (c : Dev nD) (n : ℕ) (h : n < cfg0.N) (h1 : n % 4 = 3) :
    (outsAt0 m c n h).1 = withBias (step (outsAt0 m c (n - 1) (Nat.lt_of_le_of_lt (Nat.sub_le _ _) h)).2 (xblk m c ⟨n, h⟩) (wblk m c ⟨n, h⟩)) (bblk m c ⟨n, h⟩) := by
  have h0 : ¬n % 4 = 0 := by omega
  rw [outsAt0_C m c ⟨n, h⟩ h0 h1]
  dsimp only
  exact out_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (Nat.lt_of_le_of_lt (Nat.sub_le _ _) h)).2

/-- A run's four points, last to first. -/
abbrev back (t : Fin cfg0.N) (d : ℕ) : Fin cfg0.N := ⟨t.val - d, Nat.lt_of_le_of_lt (Nat.sub_le _ _) t.isLt⟩

/-- THE RUN UNROLLED: after the last point `t` of a run the output block holds zero, plus the four products of the run's
    points in order, plus the bias row. -/
theorem out_last (c : Dev nD) (t : Fin cfg0.N) (h3 : t.val % 4 = 3) :
    (outsAt0 m c t.val t.isLt).1 = withBias (step (step (step (step zero (xblk m c (back t 3)) (wblk m c (back t 3)))
      (xblk m c (back t 2)) (wblk m c (back t 2))) (xblk m c (back t 1)) (wblk m c (back t 1))) (xblk m c t) (wblk m c t)) (bblk m c t) := by
  have hN : t.val < 128 := lt_of_lt_of_eq t.isLt (show cfg0.N = 128 from N_0)
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  rw [out_last_step m c t.val t.isLt h3, acc_middle m c (t.val - 1) l1 (by omega) (by omega),
    acc_middle m c (t.val - 1 - 1) l2 (by omega) (by omega), acc_first m c (t.val - 1 - 1 - 1) l3 (by omega)]
  have b1 : (⟨t.val - 1, l1⟩ : Fin cfg0.N) = back t 1 := rfl
  have b2 : (⟨t.val - 1 - 1, l2⟩ : Fin cfg0.N) = back t 2 := Fin.ext (by show t.val - 1 - 1 = t.val - 2; omega)
  have b3 : (⟨t.val - 1 - 1 - 1, l3⟩ : Fin cfg0.N) = back t 3 := Fin.ext (by show t.val - 1 - 1 - 1 = t.val - 3; omega)
  rw [b1, b2, b3]

/-- Entry (p, q) of the output block after the last point `t` of a run is the layer's entry at row
    `1024 · (t / 16) + p`, output feature `1024 · (t / 4 mod 4) + q`: the run's four points share the row block and
    the column block and walk the four contraction blocks in order. -/
theorem last_apply (c : Dev nD) (t : Fin cfg0.N) (h3 : t.val % 4 = 3) (p q : Fin 1024) (R : Fin 8192) (C : Fin 4096)
    (hR : R.val = 1024 * (t.val / 16) + p.val) (hC : C.val = 1024 * (t.val / 4 % 4) + q.val) :
    (outsAt0 m c t.val t.isLt).1 (ix2 p q)
      = G (m ((c : Thread nD τ).loc main_arg0)) (m ((c : Thread nD τ).loc main_arg1)) (m ((c : Thread nD τ).loc main_arg2)) (ix2 R C) := by
  have hN : t.val < 128 := lt_of_lt_of_eq t.isLt (show cfg0.N = 128 from N_0)
  rw [out_last m c t h3]
  exact block_value (m ((c : Thread nD τ).loc main_arg0)) (m ((c : Thread nD τ).loc main_arg1)) (m ((c : Thread nD τ).loc main_arg2))
    (xblk m c (back t 3)) (xblk m c (back t 2)) (xblk m c (back t 1)) (xblk m c t)
    (wblk m c (back t 3)) (wblk m c (back t 2)) (wblk m c (back t 1)) (wblk m c t) (bblk m c t) R C p q
    (fun r => xblk_apply m c (back t 3) p r R (pos 0 r)
      (by show R.val = 1024 * ((t.val - 3) / 16) + p.val; omega) (by show 1024 * 0 + r.val = 1024 * ((t.val - 3) % 4) + r.val; omega))
    (fun r => xblk_apply m c (back t 2) p r R (pos 1 r)
      (by show R.val = 1024 * ((t.val - 2) / 16) + p.val; omega) (by show 1024 * 1 + r.val = 1024 * ((t.val - 2) % 4) + r.val; omega))
    (fun r => xblk_apply m c (back t 1) p r R (pos 2 r)
      (by show R.val = 1024 * ((t.val - 1) / 16) + p.val; omega) (by show 1024 * 2 + r.val = 1024 * ((t.val - 1) % 4) + r.val; omega))
    (fun r => xblk_apply m c t p r R (pos 3 r) hR (by show 1024 * 3 + r.val = 1024 * (t.val % 4) + r.val; omega))
    (fun r => wblk_apply m c (back t 3) r q (pos 0 r) C
      (by show 1024 * 0 + r.val = 1024 * ((t.val - 3) % 4) + r.val; omega) (by show C.val = 1024 * ((t.val - 3) / 4 % 4) + q.val; omega))
    (fun r => wblk_apply m c (back t 2) r q (pos 1 r) C
      (by show 1024 * 1 + r.val = 1024 * ((t.val - 2) % 4) + r.val; omega) (by show C.val = 1024 * ((t.val - 2) / 4 % 4) + q.val; omega))
    (fun r => wblk_apply m c (back t 1) r q (pos 2 r) C
      (by show 1024 * 2 + r.val = 1024 * ((t.val - 1) % 4) + r.val; omega) (by show C.val = 1024 * ((t.val - 1) / 4 % 4) + q.val; omega))
    (fun r => wblk_apply m c t r q (pos 3 r) C (by show 1024 * 3 + r.val = 1024 * (t.val % 4) + r.val; omega) hC)
    (bblk_apply m c t q C hC)

/-! ## The result array -/

/-- The layer's result of the arguments as launched. -/
abbrev result (c : Dev nD) : Buf (Elt Ideal) ((c : Thread nD τ).loc main_v7) :=
  G (m ((c : Thread nD τ).loc main_arg0)) (m ((c : Thread nD τ).loc main_arg1)) (m ((c : Thread nD τ).loc main_arg2))

/-- What a run's last point writes back is its block of the layer's result. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 128 := lt_of_lt_of_eq t.isLt (show cfg0.N = 128 from N_0)
  obtain ⟨-, -, -, -, -, -, e0, e1⟩ := idx_facts t
  rw [Cert.KernelIdeal.Value.flushed3]
  funext j
  obtain ⟨p, q, rfl⟩ : ∃ (p q : Fin 1024), j = ix2 p q := ⟨j 0, j 1, eq_ix2 j⟩
  rw [View.read_apply]
  have e : ((cfg0.win 3).blk t).view.emb (ix2 p q)
      = ix2 (⟨1024 * (t.val / 16) + p.val, by omega⟩ : Fin 8192) (⟨1024 * (t.val / 4 % 4) + q.val, by omega⟩ : Fin 4096) := by
    funext a; apply Fin.ext
    match a with
    | ⟨0, _⟩ => show win0_3.index t (0 : Fin 2) * 1024 + 1 * p.val = 1024 * (t.val / 16) + p.val; rw [e0]; omega
    | ⟨1, _⟩ => show win0_3.index t (1 : Fin 2) * 1024 + 1 * q.val = 1024 * (t.val / 4 % 4) + q.val; rw [e1]; omega
  rw [e]
  exact last_apply m c t h3 p q _ _ rfl rfl

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every entry (R, C) of the result lies in the block the last point of run (R / 1024, C / 1024) writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hlt : 16 * ((i 0).val / 1024) + 4 * ((i 1).val / 1024) + 3 < cfg0.N := by
    rw [show cfg0.N = 128 from N_0]; omega
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  obtain ⟨-, -, -, -, -, -, e0, e1⟩ := idx_facts ⟨16 * ((i 0).val / 1024) + 4 * ((i 1).val / 1024) + 3, hlt⟩
  rw [mem_blk]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- So the result array ends holding the layer's result. -/
theorem final (c : Dev nD) : (dats m 0 c).arrAt 3 cfg0.N = result m c :=
  (dats m 0 c).arrAt_eq_of_cover 3 (result m c) (flushed_eq m c) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KValue

end
-- ==== Proof.RefValue.lean ====
/-
  The reference's result, over the extended reals, is the layer's result.

  The reference repeats the 256 × 4096 shared weights sixteen times down the rows to get the 4096 × 4096 weight matrix,
  transposes it, multiplies `x` by it and adds the bias along the rows. Row `o` of the repeated matrix is shared row
  `o mod 256`: in the row-major position `4096 · o + k` the repeat index is the quotient by 256 · 4096 and the shared
  row is the quotient by 4096 taken mod 256. So entry (i, o) of the product is the sum over the input features `k` of
  `x[i, k]` times shared weight `(o mod 256, k)`, and the bias added there is `bias[o]`.
-/
import proofs.«126062_j38895223832848_1_alg».proof.Proof.Gen.ReferenceIdeal.Read
import proofs.«126062_j38895223832848_1_alg».proof.Proof.Spec
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Read Cert.Spec

/-- The reference's last stage is the layer's result, entry by entry. -/
theorem ref_eq (x0 : FVec Ideal S8192x4096 .f32) (x1 : FVec Ideal S256x4096 .f32) (x2 : FVec Ideal S4096 .f32) :
    val_main_v7 (F := Ideal) x0 x1 x2 = G x0 x1 x2 := by
  funext i
  obtain ⟨R, C, rfl⟩ : ∃ (R : Fin 8192) (C : Fin 4096), i = ix2 R C := ⟨i 0, i 1, eq_ix2 i⟩
  have hC : C.val < 4096 := C.isLt
  rw [val_main_v7_apply, val_main_v4_apply, val_main_v6_apply, val_main_v5_apply, G_apply]
  show (∑ k : Fin 4096, _) + _ = _
  congr 1
  · refine Finset.sum_congr rfl fun k _ => ?_
    have hk : k.val < 4096 := k.isLt
    rw [val_main_v3_apply, val_main_v2_apply, val_main_v1_apply, val_main_v0_apply]
    have el : lidx_main_v4 (ix2 R C) k = ix2 R k := funext fun a => Fin.ext (by
      match a with
      | ⟨0, _⟩ => rfl
      | ⟨1, _⟩ => rfl)
    have er : idx_main_v0 (idx_main_v1 (idx_main_v2 (idx_main_v3 (ridx_main_v4 (ix2 R C) k)))) = ix2 (col C) k :=
      funext fun a => Fin.ext (by
        match a with
        | ⟨0, _⟩ =>
          show (((0 * 256 + (C.val * 4096 + k.val) / 4096 % 256) * 1 + 0) * 4096 + (C.val * 4096 + k.val) % 4096) / 4096 = C.val % 256
          omega
        | ⟨1, _⟩ =>
          show (((0 * 256 + (C.val * 4096 + k.val) / 4096 % 256) * 1 + 0) * 4096 + (C.val * 4096 + k.val) % 4096) % 4096 = k.val
          omega)
    rw [el, er]
  · have eb : idx_main_v5 (idx_main_v6 (ix2 R C)) = ix1 C := funext fun a => Fin.ext (by
      match a with
      | ⟨0, _⟩ => rfl)
    rw [eb]

end Cert.ReferenceIdeal.RefValue

end
-- ==== Proof.lean ====
/-
  A linear layer whose 4096 × 4096 weight matrix is a 256 × 4096 shared block repeated sixteen times down its rows:
      out[i, j] = (Σ_k x[i, k] · shared[j mod 256, k]) + bias[j]      (x : 8192 × 4096, out : 8192 × 4096).

  The kernel builds the transposed, repeated weights before its one call, converts both operands to the narrow float
  format, and computes each 1024 × 1024 output block by walking the contraction axis in four blocks of 1024: it clears
  an accumulator, adds the four block products one after the other, and at the last step writes accumulator plus bias.
  The reference repeats the weights, transposes, takes one whole product and adds the bias.

  Over the extended reals a change of float format is the identity and each product of blocks is an exact sum of
  products, so the kernel's entry is `(((0 + s₀) + s₁) + s₂) + s₃ + bias[j]` with `s_b` the part of the reference's sum
  over contraction block `b`. Addition of extended reals is commutative and associative, so the four partial sums in
  any grouping are the whole sum: the two results are equal entry by entry, and the finiteness of the inputs is never
  used. The ideal pass rewrote nothing, so the idealized kernel is the kernel's own text.
-/
import proofs.«126062_j38895223832848_1_alg».proof.Defs
import proofs.«126062_j38895223832848_1_alg».proof.Proof.Gen.Kernel
import proofs.«126062_j38895223832848_1_alg».proof.Proof.Gen.Kernel.Skeleton
import proofs.«126062_j38895223832848_1_alg».proof.Proof.Gen.Kernel.Launch
import proofs.«126062_j38895223832848_1_alg».proof.Proof.Gen.Kernel.Points
import proofs.«126062_j38895223832848_1_alg».proof.Proof.Gen.Kernel.Frame
import proofs.«126062_j38895223832848_1_alg».proof.Proof.Gen.KernelIdeal
import proofs.«126062_j38895223832848_1_alg».proof.Proof.Gen.KernelIdeal.Skeleton
import proofs.«126062_j38895223832848_1_alg».proof.Proof.Gen.KernelIdeal.Launch
import proofs.«126062_j38895223832848_1_alg».proof.Proof.Gen.KernelIdeal.Points
import proofs.«126062_j38895223832848_1_alg».proof.Proof.Gen.KernelIdeal.Frame
import proofs.«126062_j38895223832848_1_alg».proof.Proof.Gen.ReferenceIdeal
import proofs.«126062_j38895223832848_1_alg».proof.Proof.Gen.Pre_finite_inputs
import proofs.«126062_j38895223832848_1_alg».proof.Proof.Gen.KernelIdeal.Value
import proofs.«126062_j38895223832848_1_alg».proof.Proof.Gen.ReferenceIdeal.Run
import proofs.«126062_j38895223832848_1_alg».proof.Proof.Gen.ReferenceIdeal.Read
import Idealize.ShloMosaic.Adequacy
import Idealize.ShloMosaic.Init
import proofs.«126062_j38895223832848_1_alg».proof.Proof.KernelValue
import proofs.«126062_j38895223832848_1_alg».proof.Proof.RefValue

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the layer's result of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
